-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128x64 .f32) (main_arg5 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x64 .f32) (main_arg5 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S1x64 : Shape := ⟨2, ![1, 64]⟩
abbrev S10000x64 : Shape := ⟨2, ![10000, 64]⟩
abbrev S400x10000 : Shape := ⟨2, ![400, 10000]⟩
abbrev S400x64 : Shape := ⟨2, ![400, 64]⟩
abbrev S400x128 : Shape := ⟨2, ![400, 128]⟩
abbrev S400 : Shape := ⟨1, ![400]⟩
abbrev S400x1 : Shape := ⟨2, ![400, 1]⟩

abbrev nBuf : Space → Nat
  | .hbm => 11
  | .vmem => 16
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S10000x128, .f32⟩
  | .hbm, ⟨7, _⟩ => ⟨S1x128, .f32⟩
  | .hbm, ⟨8, _⟩ => ⟨S1x64, .f32⟩
  | .hbm, ⟨9, _⟩ => ⟨S10000x64, .f32⟩
  | .hbm, ⟨10, _⟩ => ⟨S10000x64, .f32⟩
  | .local _ .vmem, ⟨0, _⟩ => ⟨S10000x128, .f32⟩
  | .local _ .vmem, ⟨1, _⟩ => ⟨S128x128, .f32⟩
  | .local _ .vmem, ⟨2, _⟩ => ⟨S10000x128, .f32⟩
  | .local _ .vmem, ⟨3, _⟩ => ⟨S400x10000, .f32⟩
  | .local _ .vmem, ⟨4, _⟩ => ⟨S400x10000, .f32⟩
  | .local _ .vmem, ⟨5, _⟩ => ⟨S10000x128, .f32⟩
  | .local _ .vmem, ⟨6, _⟩ => ⟨S1x128, .f32⟩
  | .local _ .vmem, ⟨7, _⟩ => ⟨S128x64, .f32⟩
  | .local _ .vmem, ⟨8, _⟩ => ⟨S400x64, .f32⟩
  | .local _ .vmem, ⟨9, _⟩ => ⟨S400x64, .f32⟩
  | .local _ .vmem, ⟨10, _⟩ => ⟨S400x10000, .f32⟩
  | .local _ .vmem, ⟨11, _⟩ => ⟨S400x10000, .f32⟩
  | .local _ .vmem, ⟨12, _⟩ => ⟨S10000x64, .f32⟩
  | .local _ .vmem, ⟨13, _⟩ => ⟨S1x64, .f32⟩
  | .local _ .vmem, ⟨14, _⟩ => ⟨S400x64, .f32⟩
  | .local _ .vmem, ⟨15, _⟩ => ⟨S400x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128_S1x128 : S128.ShapeCasts S1x128
  shapeCasts_S64_S1x64 : S64.ShapeCasts S1x64
  inb_S400x10000_S400x10000_0_0 : ∀ a, (![0, 0] : Fin 2 → Nat) a + S400x10000.size a ≤ S400x10000.size a
  h_S400x10000 : 0 < S400x10000.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S128x64_S128x64_0_0 : ∀ a, (![0, 0] : Fin 2 → Nat) a + S128x64.size a ≤ S128x64.size a
  h_S128x64 : 0 < S128x64.numel
  inb_S400x64_S400x64_0_0 : ∀ a, (![0, 0] : Fin 2 → Nat) a + S400x64.size a ≤ S400x64.size a
  h_S400x64 : 0 < S400x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  reduces_S400x64_S400 : S400x64.Reduces [1] S400
  shapeCasts_S400_S400x1 : S400.ShapeCasts S400x1
  broadcasts_S400x1_S400x64 : S400x1.Broadcasts S400x64
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x64_S400x64_1_0_0_1_n_n_wf : DotDims.WF S400x128 S128x64 S400x64 [1] [0] [0] [1] [] []
  dot_S400x10000_S10000x64_S400x64_1_0_0_1_n_n_wf : DotDims.WF S400x10000 S10000x64 S400x64 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x64.size a ≤ S10000x64.size a
  hwx1_4 : ∀ i : grid1.Coords, EltTy.bits .f32 = 32 ∨ (Rect.block (s := S10000x64) S400x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S10000x64.size a
  hwx2_1 : ∀ i : grid2.Coords, EltTy.bits .f32 = 32 ∨ (Rect.block (s := S10000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x64.size a ≤ S10000x64.size a
  hwx2_3 : ∀ i : grid2.Coords, EltTy.bits .f32 = 32 ∨ (Rect.block (s := S10000x64) S400x64.size (cc2_transform_3 i) (hinb2_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v0) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S400x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S10000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S400x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S_ : Shape := ⟨0, ![]⟩
abbrev S10000x64 : Shape := ⟨2, ![10000, 64]⟩
abbrev S1x64 : Shape := ⟨2, ![1, 64]⟩
abbrev S10000 : Shape := ⟨1, ![10000]⟩
abbrev S10000x1 : Shape := ⟨2, ![10000, 1]⟩

abbrev nBuf : Space → Nat
  | .hbm => 34
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x64, .f32⟩
  | .hbm, ⟨15, _⟩ => ⟨S10000x64, .f32⟩
  | .hbm, ⟨16, _⟩ => ⟨S1x64, .f32⟩
  | .hbm, ⟨17, _⟩ => ⟨S10000x64, .f32⟩
  | .hbm, ⟨18, _⟩ => ⟨S10000x64, .f32⟩
  | .hbm, ⟨19, _⟩ => ⟨S_, .f32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S10000x1, .f32⟩
  | .hbm, ⟨25, _⟩ => ⟨S10000x64, .f32⟩
  | .hbm, ⟨26, _⟩ => ⟨S10000x64, .f32⟩
  | .hbm, ⟨27, _⟩ => ⟨S10000x64, .f32⟩
  | .hbm, ⟨28, _⟩ => ⟨S_, .f32⟩
  | .hbm, ⟨29, _⟩ => ⟨S10000, .f32⟩
  | .hbm, ⟨30, _⟩ => ⟨S10000x1, .f32⟩
  | .hbm, ⟨31, _⟩ => ⟨S10000x1, .f32⟩
  | .hbm, ⟨32, _⟩ => ⟨S10000x64, .f32⟩
  | .hbm, ⟨33, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_cst : Ref sig .tc := ⟨.hbm, 19, rfl⟩
abbrev main_call1_v0 : Ref sig .tc := ⟨.hbm, 20, rfl⟩
abbrev main_call1_cst_0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_v6 : Ref sig .tc := ⟨.hbm, 27, rfl⟩
abbrev main_call1_cst_1 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_v11 : Ref sig .tc := ⟨.hbm, 33, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  reducesTo_S10000x64_S10000_d1 : S10000x64.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.Spec.lean ====
/-
  The mathematics of a two-layer dense graph convolution followed by a row-wise log-softmax, over the extended reals.

  With x : 10000 × 128, adj : 10000 × 10000, W1 : 128 × 128, b1 : 128, W2 : 128 × 64, b2 : 64 the network is
      s1 = x · W1,   hid = max (adj · s1 + b1) 0,   s2 = hid · W2,   o = adj · s2 + b2,
  and the result is the log-softmax of each row of o.  Two spellings of that last step occur:
      o[r, c] - (m_r + log Σ_c' exp (o[r, c'] - m_r))          (the shift and the log-sum added first),
      (o[r, c] - m_r) - log Σ_c' exp (o[r, c'] - m_r)          (the shift subtracted first),
  with m_r the maximum of row r.  On the extended reals  a - (b + l) = (a - b) - l  holds whenever a and b are
  real, whatever l is (at l = ±∞ both sides are ∓∞), and fails when b is infinite; so the two agree as soon as every
  logit o[r, c] is a real number, which it is when every input entry is: sums, products and maxima of reals are reals,
  and the maximum of a non-empty row of reals, folded from -∞, is a real.
-/
import Idealize.ShloMosaic.PureOps.Ideal
import Idealize.ShloMosaic.Lib.ValueIdx

noncomputable section

namespace Cert.Gcn

open Idealize.ShloMosaic Idealize.ShloMosaic.ValueIdx

/-- A matrix of extended reals, as an array of rank 2. -/
abbrev Mat (n k : Nat) : Type := (⟨2, ![n, k]⟩ : Shape).Idx → EReal
/-- A vector of extended reals, as an array of rank 1. -/
abbrev Row (n : Nat) : Type := (⟨1, ![n]⟩ : Shape).Idx → EReal

/-- Entry (r, c) of the product a · b: row r of a against column c of b. -/
def dotAt {n k p : Nat} (a : Mat n k) (b : Mat k p) (r : Fin n) (c : Fin p) : EReal :=
  ∑ q : Fin k, a (ix2 r q) * b (ix2 q c)

/-- The product a · b. -/
def mm {n k p : Nat} (a : Mat n k) (b : Mat k p) : Mat n p := fun i => dotAt a b (i 0) (i 1)

/-- A vector as a one-row matrix. -/
def rowOf {n : Nat} (b : Row n) : Mat 1 n := fun i => b (ix1 (i 1))

/-- Entry (r, k) of the hidden layer: max ((adj · s1)[r, k] + b1[k]) 0. -/
def hidAt (adj : Mat 10000 10000) (s1 : Mat 10000 128) (b1 : Fin 128 → EReal) (r : Fin 10000) (k : Fin 128) : EReal :=
  max (dotAt adj s1 r k + b1 k) 0

/-- Entry (r, c) of the hidden layer projected by W2. -/
def projAt (adj : Mat 10000 10000) (s1 : Mat 10000 128) (b1 : Fin 128 → EReal) (w2 : Mat 128 64) (r : Fin 10000) (c : Fin 64) : EReal :=
  ∑ k : Fin 128, hidAt adj s1 b1 r k * w2 (ix2 k c)

/-- Entry (r, c) of the logits: (adj · s2)[r, c] + b2[c]. -/
def logitAt (adj : Mat 10000 10000) (s2 : Mat 10000 64) (b2 : Fin 64 → EReal) (r : Fin 10000) (c : Fin 64) : EReal :=
  dotAt adj s2 r c + b2 c

/-- The maximum of a row of 64 entries, folded from -∞. -/
def rowMax (o : Fin 64 → EReal) : EReal := (Finset.univ : Finset (Fin 64)).fold max ⊥ o

/-- log Σ_c exp (o c - max o). -/
def lseShift (o : Fin 64 → EReal) : EReal := Ideal.log (∑ c : Fin 64, Ideal.exp (o c - rowMax o))

/-- The log-softmax of a row, the shift and the log-sum added first. -/
def lsmAdd (o : Fin 64 → EReal) (c : Fin 64) : EReal := o c - (rowMax o + lseShift o)

/-- The log-softmax of a row, the shift subtracted first. -/
def lsmSub (o : Fin 64 → EReal) (c : Fin 64) : EReal := (o c - rowMax o) - lseShift o

/-- The second product with bias, relu and projection fused: rows of relu (adj · s1 + b1) · W2, the bias a one-row matrix. -/
def layer1 (adj : Mat 10000 10000) (s1 : Mat 10000 128) (b1r : Mat 1 128) (w2 : Mat 128 64) : Mat 10000 64 :=
  fun i => projAt adj s1 (fun k => b1r (ix2 0 k)) w2 (i 0) (i 1)

/-- The third product with bias and log-softmax fused (the shift and the log-sum added first), the bias a one-row matrix. -/
def layer2 (adj : Mat 10000 10000) (s2 : Mat 10000 64) (b2r : Mat 1 64) : Mat 10000 64 :=
  fun i => lsmAdd (fun c => logitAt adj s2 (fun c' => b2r (ix2 0 c')) (i 0) c) (i 1)

/-- The three fused stages composed. -/
def fusedOut (x : Mat 10000 128) (adj : Mat 10000 10000) (w1 : Mat 128 128) (b1 : Row 128) (w2 : Mat 128 64) (b2 : Row 64) : Mat 10000 64 :=
  layer2 adj (layer1 adj (mm x w1) (rowOf b1) w2) (rowOf b2)

/-- The network stage by stage, the log-softmax with the shift subtracted first. -/
def plainOut (x : Mat 10000 128) (adj : Mat 10000 10000) (w1 : Mat 128 128) (b1 : Row 128) (w2 : Mat 128 64) (b2 : Row 64) : Mat 10000 64 :=
  fun i => lsmSub (fun c => logitAt adj (fun j => projAt adj (mm x w1) (fun k => b1 (ix1 k)) w2 (j 0) (j 1)) (fun c' => b2 (ix1 c')) (i 0) c) (i 1)

/-! ## Real entries stay real -/

/-- An extended real that is a real number. -/
def IsReal (a : EReal) : Prop := ∃ r : ℝ, a = (r : EReal)

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.max {a b : EReal} (ha : IsReal a) (hb : IsReal b) : IsReal (max a b) := by
  obtain ⟨r, rfl⟩ := ha; obtain ⟨s, rfl⟩ := hb
  rcases le_total r s with h | h
  · exact ⟨s, max_eq_right (EReal.coe_le_coe_iff.mpr h)⟩
  · exact ⟨r, max_eq_left (EReal.coe_le_coe_iff.mpr h)⟩

theorem IsReal.zero : IsReal 0 := ⟨0, EReal.coe_zero.symm⟩

theorem IsReal.sum {ι : Type*} (s : Finset ι) (f : ι → EReal) (hf : ∀ i ∈ s, IsReal (f i)) : IsReal (∑ i ∈ s, f i) := by
  classical
  induction s using Finset.induction_on with
  | empty => simpa using IsReal.zero
  | insert a s ha ih =>
    rw [Finset.sum_insert ha]
    exact (hf a (Finset.mem_insert_self a s)).add (ih fun i hi => hf i (Finset.mem_insert_of_mem hi))

/-- The maximum of a non-empty family of reals, folded from -∞, is a real. -/
theorem IsReal.foldMax {ι : Type*} (s : Finset ι) (hs : s.Nonempty) (f : ι → EReal) (hf : ∀ i ∈ s, IsReal (f i)) :
    IsReal (s.fold Max.max ⊥ f) := by
  classical
  induction hs using Finset.Nonempty.cons_induction with
  | singleton a =>
    rw [Finset.fold_singleton, max_bot_right]
    exact hf a (Finset.mem_singleton_self a)
  | cons a s ha hs ih =>
    rw [Finset.fold_cons]
    exact (hf a (Finset.mem_cons_self a s)).max (ih fun i hi => hf i (Finset.mem_cons_of_mem hi))

theorem dotAt_isReal {n k p : Nat} (a : Mat n k) (b : Mat k p) (ha : ∀ i, IsReal (a i)) (hb : ∀ i, IsReal (b i))
    (r : Fin n) (c : Fin p) : IsReal (dotAt a b r c) :=
  IsReal.sum _ _ fun q _ => (ha _).mul (hb _)

theorem mm_isReal {n k p : Nat} (a : Mat n k) (b : Mat k p) (ha : ∀ i, IsReal (a i)) (hb : ∀ i, IsReal (b i)) (i) :
    IsReal (mm a b i) := dotAt_isReal a b ha hb _ _

theorem projAt_isReal (adj : Mat 10000 10000) (s1 : Mat 10000 128) (b1 : Fin 128 → EReal) (w2 : Mat 128 64)
    (hadj : ∀ i, IsReal (adj i)) (hs1 : ∀ i, IsReal (s1 i)) (hb1 : ∀ k, IsReal (b1 k)) (hw2 : ∀ i, IsReal (w2 i))
    (r : Fin 10000) (c : Fin 64) : IsReal (projAt adj s1 b1 w2 r c) :=
  IsReal.sum _ _ fun k _ => (((dotAt_isReal adj s1 hadj hs1 r k).add (hb1 k)).max IsReal.zero).mul (hw2 _)

theorem logitAt_isReal (adj : Mat 10000 10000) (s2 : Mat 10000 64) (b2 : Fin 64 → EReal)
    (hadj : ∀ i, IsReal (adj i)) (hs2 : ∀ i, IsReal (s2 i)) (hb2 : ∀ c, IsReal (b2 c)) (r : Fin 10000) (c : Fin 64) :
    IsReal (logitAt adj s2 b2 r c) :=
  (dotAt_isReal adj s2 hadj hs2 r c).add (hb2 c)

/-! ## The two spellings of the log-softmax -/

/-- For real a and b, a - (b + l) = (a - b) - l at every extended real l. -/
theorem sub_add_eq_sub_sub_of_real (a b : ℝ) (l : EReal) : (a : EReal) - ((b : EReal) + l) = ((a : EReal) - (b : EReal)) - l := by
  induction l using EReal.rec with
  | bot => simp [← EReal.coe_sub]
  | top => simp [← EReal.coe_sub]
  | coe l => rw [← EReal.coe_add, ← EReal.coe_sub, ← EReal.coe_sub, ← EReal.coe_sub]; congr 1; ring

theorem rowMax_isReal (o : Fin 64 → EReal) (ho : ∀ c, IsReal (o c)) : IsReal (rowMax o) :=
  IsReal.foldMax _ ⟨0, Finset.mem_univ _⟩ o fun c _ => ho c

theorem lsmAdd_eq_lsmSub (o : Fin 64 → EReal) (ho : ∀ c, IsReal (o c)) (c : Fin 64) : lsmAdd o c = lsmSub o c := by
  unfold lsmAdd lsmSub
  obtain ⟨a, ha⟩ := ho c
  obtain ⟨b, hb⟩ := rowMax_isReal o ho
  rw [ha, hb]
  exact sub_add_eq_sub_sub_of_real a b _

/-- With every input entry a real number the fused stages and the plain network give the same array. -/
theorem fusedOut_eq_plainOut (x : Mat 10000 128) (adj : Mat 10000 10000) (w1 : Mat 128 128) (b1 : Row 128) (w2 : Mat 128 64) (b2 : Row 64)
    (hx : ∀ i, IsReal (x i)) (hadj : ∀ i, IsReal (adj i)) (hw1 : ∀ i, IsReal (w1 i)) (hb1 : ∀ i, IsReal (b1 i))
    (hw2 : ∀ i, IsReal (w2 i)) (hb2 : ∀ i, IsReal (b2 i)) :
    fusedOut x adj w1 b1 w2 b2 = plainOut x adj w1 b1 w2 b2 := by
  funext i
  show lsmAdd _ (i 1) = lsmSub _ (i 1)
  refine lsmAdd_eq_lsmSub _ (fun c => ?_) (i 1)
  refine logitAt_isReal adj _ _ hadj (fun j => ?_) (fun c' => hb2 _) (i 0) c
  exact projAt_isReal adj (mm x w1) _ w2 hadj (mm_isReal x w1 hx hw1) (fun k => hb1 _) hw2 (j 0) (j 1)

/-- The f32 word of -∞ denotes -∞. -/
theorem negInf_f32 : Ideal.ofBits .f32 0xFF800000#32 = (⊥ : EReal) := by simp [Ideal.ofBits, Ideal.ieee]

end Cert.Gcn

end
-- ==== Proof.PreReal.lean ====
import proofs.«117953_g47150150975850_cont_8to1c4_652_2_alg».proof.Proof.Gen.Pre_finite_inputs
import proofs.«117953_g47150150975850_cont_8to1c4_652_2_alg».proof.Proof.Spec
import Idealize.ShloMosaic.Lib.ReduceAll
import Idealize.ShloMosaic.Lib.ValueIdx

noncomputable section

namespace Cert.PreReal

open Idealize.ShloMosaic Idealize.ShloMosaic.ValueIdx Cert.Pre_finite_inputs

/-- The rank-0 shape has exactly one index: there is no axis to disagree on. -/
instance subsingleton_scalar_idx : Subsingleton S_.Idx := ⟨fun a b => funext fun d => d.elim0⟩

/-- The pattern `0x7F800000` (sign 0, exponent all ones, significand 0) denotes `+∞`. -/
theorem posInf_f32 : Ideal.ofBits .f32 0x7F800000#32 = (⊤ : EReal) := by
  simp [Ideal.ofBits, Ideal.ieee]

/-- An extended real whose absolute value `max x (-x)` is strictly below `+∞` is a real number:
    at `⊥` and at `⊤` the absolute value is `⊤`, and `⊤ < ⊤` is false. -/
theorem isReal_of_abs_lt_top (x : EReal) (h : Ideal.cmp .olt (max x (-x)) (⊤ : EReal) = 1#1) :
    Cert.Gcn.IsReal x := by
  induction x using EReal.rec with
  | bot => simp [Ideal.cmp] at h
  | top => simp [Ideal.cmp] at h
  | coe r => exact ⟨r, rfl⟩

/-- One all-finite test, over an arbitrary shape: if the conjunction over all entries of
    `|a i| < +∞` is 1, every entry of `a` is a real number. -/
theorem real_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
        (cmpf .olt (Host.absf a) (broadcastInDim s ![] hb (constant (F := Ideal) S_ .f32 0x7F800000#32)))
        (constantI S_ 1 1#1) hr hu ix0 = 1#1) :
    ∀ i, Cert.Gcn.IsReal (a i) := by
  intro i
  have hi := Host.reduce_andi_all _ _ hr hu ix0 e i
  refine isReal_of_abs_lt_top (a i) ?_
  rw [← posInf_f32]
  exact hi

theorem real_of_fn (a0 : FVec Ideal S10000x128 .f32) (a1 : FVec Ideal S10000x10000 .f32) (a2 : FVec Ideal S128x128 .f32)
    (a3 : FVec Ideal S128 .f32) (a4 : FVec Ideal S128x64 .f32) (a5 : FVec Ideal S64 .f32)
    (h : Cert.Pre_finite_inputs.fn (F := Ideal) a0 a1 a2 a3 a4 a5 = fun _ => 1#1) :
    (∀ i, Cert.Gcn.IsReal (a0 i)) ∧ (∀ i, Cert.Gcn.IsReal (a1 i)) ∧ (∀ i, Cert.Gcn.IsReal (a2 i))
      ∧ (∀ i, Cert.Gcn.IsReal (a3 i)) ∧ (∀ i, Cert.Gcn.IsReal (a4 i)) ∧ (∀ i, Cert.Gcn.IsReal (a5 i)) := by
  have h0 := congrFun h ix0
  dsimp only [Cert.Pre_finite_inputs.fn, Cert.Pre_finite_inputs.fn_part1, andi] at h0
  obtain ⟨h01234, h5⟩ := IntOp.andi_eq_one.1 h0
  obtain ⟨h0123, h4⟩ := IntOp.andi_eq_one.1 h01234
  obtain ⟨h012, h3⟩ := IntOp.andi_eq_one.1 h0123
  obtain ⟨h01, h2⟩ := IntOp.andi_eq_one.1 h012
  obtain ⟨h0', h1⟩ := IntOp.andi_eq_one.1 h01
  exact ⟨real_of_all a0 _ _ _ h0', real_of_all a1 _ _ _ h1, real_of_all a2 _ _ _ h2,
    real_of_all a3 _ _ _ h3, real_of_all a4 _ _ _ h4, real_of_all a5 _ _ _ h5⟩

end Cert.PreReal

end
-- ==== Proof.Region0.lean ====
import proofs.«117953_g47150150975850_cont_8to1c4_652_2_alg».proof.Proof.Gen.KernelIdeal.Frame
import proofs.«117953_g47150150975850_cont_8to1c4_652_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-! ## The product's operand indices, axis by axis

For the dimension numbers "contract axis 1 of the left operand with axis 0 of the right one", the left operand is read at
(row of the output, contraction coordinate) and the right one at (contraction coordinate, column of the output). -/

theorem lhs_axis0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_axis1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_axis0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_axis1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-! ## The body's arithmetic at an index -/

/-- Entry (r, q) of the body's result: the product accumulated into zero is the sum over the contraction coordinate
    of left (r, k) times right (k, q). -/
theorem pay_apply (x0 : FVec Ideal S10000x128 .f32) (x1 : FVec Ideal S128x128 .f32) (r : Fin 10000) (q : Fin 128) :
    k0_pay1 (F := Ideal) x0 x1 (ix2 r q) = Cert.Gcn.dotAt x0 x1 r q := by
  unfold k0_pay1
  show FloatOps.matmul dot_S10000x128_S128x128_S10000x128_1_0_0_1_n_n none x0 x1 (constant (F := Ideal) S10000x128 .f32 0x00000000#32) (ix2 r q) = _
  rw [Ideal.matmul_constant_zero_apply, ← Equiv.sum_comp (contrEquiv1 dot_S10000x128_S128x128_S10000x128_1_0_0_1_n_n 128 rfl rfl).symm]
  unfold Cert.Gcn.dotAt
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 r q) ((contrEquiv1 dot_S10000x128_S128x128_S10000x128_1_0_0_1_n_n 128 rfl rfl).symm k) = ix2 r k := funext fun a => Fin.ext (by
    match a with
    | ⟨0, _⟩ => exact lhs_axis0 _ _
    | ⟨1, _⟩ => exact (lhs_axis1 _ _).trans hk)
  have er : dot_S10000x128_S128x128_S10000x128_1_0_0_1_n_n.rhsIdx (ix2 r q) ((contrEquiv1 dot_S10000x128_S128x128_S10000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- The body's result is the product of its two loaded blocks. -/
theorem pay_eq (x0 : FVec Ideal S10000x128 .f32) (x1 : FVec Ideal S128x128 .f32) :
    k0_pay1 (F := Ideal) x0 x1 = Cert.Gcn.mm x0 x1 := by
  funext j
  obtain ⟨r, q, rfl⟩ : ∃ (r : Fin 10000) (q : Fin 128), j = ix2 r q := ⟨j 0, j 1, eq_ix2 j⟩
  exact pay_apply x0 x1 r q

/-! ## From the one block to the array

The pipeline has a single point, and each of its three windows stages its whole array as one block at block index 0. -/

/-- The zero offsets, however spelt. -/
theorem zero_offsets : (![0, 0] : Fin 2 → Nat) = fun _ => 0 := funext fun a => by fin_cases a <;> rfl

/-- The block of the left operand's window is the whole left operand as found at entry. -/
theorem lhs_block (c : Dev nD) (t : Fin cfg0.N) : iblk0 V c 0 t = V c main_arg0 := by
  unfold iblk0
  have hz : (fun a => win0_0.index t a * main_arg0.ty.shape.size a) = fun _ => 0 := funext fun a => Nat.zero_mul _
  exact Memref.read_access_unit_zero (Elt Ideal) main_arg0 hz (fun a => by rw [congrFun hz a]; simp) (V c main_arg0)

/-- The block of the right operand's window is the whole right operand as found at entry. -/
theorem rhs_block (c : Dev nD) (t : Fin cfg0.N) : iblk0 V c 1 t = V c main_arg2 := by
  unfold iblk0
  have hz : (fun a => win0_1.index t a * main_arg2.ty.shape.size a) = fun _ => 0 := funext fun a => Nat.zero_mul _
  exact Memref.read_access_unit_zero (Elt Ideal) main_arg2 hz (fun a => by rw [congrFun hz a]; simp) (V c main_arg2)

/-- What the point writes back is the result window's block of the product of the two operands. -/
theorem flushed_eq (c : Dev nD) (t : Fin cfg0.N) :
    (dat0 V c).flushed 2 t = ((cfg0.win 2).blk t).view.read (Elt Ideal) (Cert.Gcn.mm (V c main_arg0) (V c main_arg2)) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x128) zero_offsets]
  refine Eq.trans (b := Cert.Gcn.mm (V c main_arg0) (V c main_arg2)) ?_ ?_
  · show k0_pay1 (F := Ideal) (iblk0 V c 0 t) (iblk0 V c 1 t) = _
    exact (pay_eq _ _).trans (congrArg₂ Cert.Gcn.mm (lhs_block V c t) (rhs_block V c t))
  · have hz : (fun a => win0_2.index t a * main_v0.ty.shape.size a) = fun _ => 0 := funext fun a => Nat.zero_mul _
    exact (Memref.read_access_unit_zero (Elt Ideal) main_v0 hz (fun a => by rw [congrFun hz a]; simp) _).symm

/-- Every index of the result array lies in the one point's block. -/
theorem mem_blk (t : Fin cfg0.N) (i : S10000x128.Idx) : i ∈ ((cfg0.win 2).blk t).view.set := by
  show i ∈ ((View.whole main_v0).slice (win0_2.rect t)).set
  rw [View.set_slice_whole, Rect.mem_set_unit]
  intro a
  show 0 * S10000x128.size a ≤ (i a).val ∧ (i a).val < 0 * S10000x128.size a + S10000x128.size a
  rw [Nat.zero_mul, Nat.zero_add]
  exact ⟨Nat.zero_le _, (i a).isLt⟩

theorem final (c : Dev nD) : (dat0 V c).arrAt 2 cfg0.N = Cert.Gcn.mm (V c main_arg0) (V c main_arg2) :=
  (dat0 V c).arrAt_eq_of_cover 2 _ (fun t _ => flushed_eq V c t) fun i => ⟨t0_0, flush0_2 t0_0, mem_blk t0_0 i⟩

end Cert.KernelIdeal.Region0

end
-- ==== Proof.Region1.lean ====
import proofs.«117953_g47150150975850_cont_8to1c4_652_2_alg».proof.Proof.Gen.KernelIdeal.Frame
import proofs.«117953_g47150150975850_cont_8to1c4_652_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-! ## The two products of the body, read at an index

Each product contracts axis 1 of its left operand against axis 0 of its right operand; at output index (r, c) and
contraction index k the operands are read at (r, k) and (k, c). -/

/-- The first product's left operand index keeps the output's row. -/
theorem lhsA_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
/-- Its column is the contraction index. -/
theorem lhsA_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
/-- The first product's right operand index has the contraction index as its row. -/
theorem rhsA_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
/-- It keeps the output's column. -/
theorem rhsA_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The first product at (r, k): row r of the left operand against column k of the right one, a sum over 10000 terms. -/
theorem mmA_apply (a : FVec Ideal S400x10000 .f32) (b : FVec Ideal S10000x128 .f32) (r : Fin 400) (k : Fin 128) :
    matmul dot_S400x10000_S10000x128_S400x128_1_0_0_1_n_n none a b (constant (F := Ideal) S400x128 .f32 0x00000000#32) (ix2 r k)
      = ∑ j : Fin 10000, a (ix2 r j) * b (ix2 j k) := by
  simp only [matmul]
  rw [Ideal.matmul_constant_zero_apply, ← Equiv.sum_comp (ValueIdx.contrEquiv1 dot_S400x10000_S10000x128_S400x128_1_0_0_1_n_n 10000 rfl rfl).symm]
  refine Finset.sum_congr rfl fun j _ => ?_
  have hj := ValueIdx.contrEquiv1_symm_val dot_S400x10000_S10000x128_S400x128_1_0_0_1_n_n 10000 rfl rfl j
  have el : dot_S400x10000_S10000x128_S400x128_1_0_0_1_n_n.lhsIdx (ix2 r k) ((ValueIdx.contrEquiv1 dot_S400x10000_S10000x128_S400x128_1_0_0_1_n_n 10000 rfl rfl).symm j) = ix2 r j := funext fun ax => Fin.ext (by
    match ax with
    | ⟨0, _⟩ => exact lhsA_0 _ _
    | ⟨1, _⟩ => exact (lhsA_1 _ _).trans hj)
  have er : dot_S400x10000_S10000x128_S400x128_1_0_0_1_n_n.rhsIdx (ix2 r k) ((ValueIdx.contrEquiv1 dot_S400x10000_S10000x128_S400x128_1_0_0_1_n_n 10000 rfl rfl).symm j) = ix2 j k := funext fun ax => Fin.ext (by
    match ax with
    | ⟨0, _⟩ => exact (rhsA_0 _ _).trans hj
    | ⟨1, _⟩ => exact rhsA_1 _ _)
  rw [el, er]

/-- The second product's left operand index keeps the output's row. -/
theorem lhsB_0 (i : S400x64.Idx) (q : dot_S400x128_S128x64_S400x64_1_0_0_1_n_n.contr.Idx) :
    (dot_S400x128_S128x64_S400x64_1_0_0_1_n_n.lhsIdx i q 0).val = (i 0).val := by
  unfold DotDims.lhsIdx
  rw [dif_neg (show ¬(0 : Fin S400x128.rank) ∈ dot_S400x128_S128x64_S400x64_1_0_0_1_n_n.lhsBatch by decide), dif_pos (show (0 : Fin S400x128.rank) ∈ dot_S400x128_S128x64_S400x64_1_0_0_1_n_n.lhsNonContracting by decide)]
  rfl
/-- Its column is the contraction index. -/
theorem lhsB_1 (i : S400x64.Idx) (q : dot_S400x128_S128x64_S400x64_1_0_0_1_n_n.contr.Idx) :
    (dot_S400x128_S128x64_S400x64_1_0_0_1_n_n.lhsIdx i q 1).val = (q ⟨0, by decide⟩).val :=
  dot_S400x128_S128x64_S400x64_1_0_0_1_n_n.lhsIdx_val_of_single rfl i q
/-- The second product's right operand index has the contraction index as its row. -/
theorem rhsB_0 (i : S400x64.Idx) (q : dot_S400x128_S128x64_S400x64_1_0_0_1_n_n.contr.Idx) :
    (dot_S400x128_S128x64_S400x64_1_0_0_1_n_n.rhsIdx i q 0).val = (q ⟨0, by decide⟩).val :=
  dot_S400x128_S128x64_S400x64_1_0_0_1_n_n.rhsIdx_val_of_single rfl i q
/-- It keeps the output's column. -/
theorem rhsB_1 (i : S400x64.Idx) (q : dot_S400x128_S128x64_S400x64_1_0_0_1_n_n.contr.Idx) :
    (dot_S400x128_S128x64_S400x64_1_0_0_1_n_n.rhsIdx i q 1).val = (i 1).val := by
  unfold DotDims.rhsIdx
  rw [dif_neg (show ¬(1 : Fin S128x64.rank) ∈ dot_S400x128_S128x64_S400x64_1_0_0_1_n_n.rhsBatch by decide), dif_pos (show (1 : Fin S128x64.rank) ∈ dot_S400x128_S128x64_S400x64_1_0_0_1_n_n.rhsNonContracting by decide)]
  rfl

/-- The second product at (r, c): row r of the left operand against column c of the right one, a sum over 128 terms. -/
theorem mmB_apply (a : FVec Ideal S400x128 .f32) (b : FVec Ideal S128x64 .f32) (r : Fin 400) (c : Fin 64) :
    matmul dot_S400x128_S128x64_S400x64_1_0_0_1_n_n none a b (constant (F := Ideal) S400x64 .f32 0x00000000#32) (ix2 r c)
      = ∑ k : Fin 128, a (ix2 r k) * b (ix2 k c) := by
  simp only [matmul]
  rw [Ideal.matmul_constant_zero_apply, ← Equiv.sum_comp (ValueIdx.contrEquiv1 dot_S400x128_S128x64_S400x64_1_0_0_1_n_n 128 rfl rfl).symm]
  refine Finset.sum_congr rfl fun k _ => ?_
  have hk := ValueIdx.contrEquiv1_symm_val dot_S400x128_S128x64_S400x64_1_0_0_1_n_n 128 rfl rfl k
  have el : dot_S400x128_S128x64_S400x64_1_0_0_1_n_n.lhsIdx (ix2 r c) ((ValueIdx.contrEquiv1 dot_S400x128_S128x64_S400x64_1_0_0_1_n_n 128 rfl rfl).symm k) = ix2 r k := funext fun ax => Fin.ext (by
    match ax with
    | ⟨0, _⟩ => exact lhsB_0 _ _
    | ⟨1, _⟩ => exact (lhsB_1 _ _).trans hk)
  have er : dot_S400x128_S128x64_S400x64_1_0_0_1_n_n.rhsIdx (ix2 r c) ((ValueIdx.contrEquiv1 dot_S400x128_S128x64_S400x64_1_0_0_1_n_n 128 rfl rfl).symm k) = ix2 k c := funext fun ax => Fin.ext (by
    match ax with
    | ⟨0, _⟩ => exact (rhsB_0 _ _).trans hk
    | ⟨1, _⟩ => exact rhsB_1 _ _)
  rw [el, er]

/-! ## The body's payload at an index -/

/-- The body's arithmetic at (r, c) of the output block, from its four loaded blocks: the row block of the adjacency
    against the first projection, the bias row added, the maximum with zero taken, and the result projected. -/
theorem pay_apply (x0 : FVec Ideal S400x10000 .f32) (x1 : FVec Ideal S10000x128 .f32) (x2 : FVec Ideal S1x128 .f32)
    (x3 : FVec Ideal S128x64 .f32) (r : Fin 400) (c : Fin 64) :
    k1_pay1 (F := Ideal) x0 x1 x2 x3 (ix2 r c)
      = ∑ k : Fin 128, max ((∑ j : Fin 10000, x0 (ix2 r j) * x1 (ix2 j k)) + x2 (ix2 (0 : Fin 1) k)) 0 * x3 (ix2 k c) := by
  unfold k1_pay1
  refine (mmB_apply _ _ r c).trans ?_
  refine Finset.sum_congr rfl fun k _ => ?_
  refine congrArg (· * x3 (ix2 k c)) ?_
  rw [maximumf_apply, addf_apply, broadcast_apply, shapeCast_self, shapeCast_self, mmA_apply,
    broadcastTo_1b_ab_apply]
  exact congrArg (max _) Ideal.ofBits_zero_f32

/-- The same against the arrays the blocks are cut from: when row r of the first block is row R of the adjacency,
    the second and fourth blocks are the whole projections and the third the bias row, the payload at (r, c) is the
    hidden layer's row R projected onto column c. -/
theorem pay_eq_projAt (adj : Cert.Gcn.Mat 10000 10000) (s1 : Cert.Gcn.Mat 10000 128) (b1r : Cert.Gcn.Mat 1 128) (w2 : Cert.Gcn.Mat 128 64)
    (x0 : FVec Ideal S400x10000 .f32) (x1 : FVec Ideal S10000x128 .f32) (x2 : FVec Ideal S1x128 .f32)
    (x3 : FVec Ideal S128x64 .f32) (R : Fin 10000) (r : Fin 400) (c : Fin 64)
    (h0 : ∀ j : Fin 10000, x0 (ix2 r j) = adj (ix2 R j))
    (h1 : ∀ (j : Fin 10000) (k : Fin 128), x1 (ix2 j k) = s1 (ix2 j k))
    (h2 : ∀ k : Fin 128, x2 (ix2 (0 : Fin 1) k) = b1r (ix2 (0 : Fin 1) k))
    (h3 : ∀ k : Fin 128, x3 (ix2 k c) = w2 (ix2 k c)) :
    k1_pay1 (F := Ideal) x0 x1 x2 x3 (ix2 r c) = Cert.Gcn.projAt adj s1 (fun k => b1r (ix2 (0 : Fin 1) k)) w2 R c := by
  rw [pay_apply]
  unfold Cert.Gcn.projAt Cert.Gcn.hidAt Cert.Gcn.dotAt
  refine Finset.sum_congr rfl fun k _ => ?_
  rw [h2 k, h3 k]
  refine congrArg (fun s => max (s + b1r (ix2 (0 : Fin 1) k)) 0 * w2 (ix2 k c)) ?_
  refine Finset.sum_congr rfl fun j _ => ?_
  rw [h0 j, h1 j k]

/-! ## From the blocks to the array -/

theorem hz : (![0, 0] : Fin 2 → Nat) = fun _ => 0 := funext fun a => by fin_cases a <;> rfl

/-- The windows' block indices over the grid: the adjacency's row block moves with the output's, whose row index is
    the point and whose column index is zero; the three whole-array windows stay at block (0, 0). -/
theorem idx_facts : ∀ t : Fin cfg1.N,
    win1_0.index t (0 : Fin 2) = win1_4.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of the hidden layer projected, as a function of the arrays at entry. -/
theorem flushed_eq (c : Dev nD) (t : Fin cfg1.N) :
    (dat1 V c).flushed 4 t = ((cfg1.win 4).blk t).view.read (Elt Ideal)
      (Cert.Gcn.layer1 (V c main_arg1) (V c main_v0) (V c main_v1) (V c main_arg4)) := by
  show (cfg1.win 4).cut (grid1.coords t) ((dat1 V c).after 4 t) = _
  rw [after1_4]
  unfold out1_4
  rw [View.canon_unit_zero hz]
  simp only [View.ld_unit_zero (S := S400x10000) hz, View.ld_unit_zero (S := S10000x128) hz,
    View.ld_unit_zero (S := S1x128) hz, View.ld_unit_zero (S := S128x64) hz]
  obtain ⟨e00, e01, e10, e11, e20, e21, e30, e31, e40, e41⟩ := idx_facts t
  have ht : t.val < 25 := lt_of_lt_of_eq t.isLt N_1
  funext j
  obtain ⟨r, q, rfl⟩ : ∃ (r : Fin 400) (q : Fin 64), j = ix2 r q := ⟨j 0, j 1, eq_ix2 j⟩
  have hr : r.val < 400 := r.isLt
  refine (pay_eq_projAt (V c main_arg1) (V c main_v0) (V c main_v1) (V c main_arg4) _ _ _ _
    ⟨t.val * 400 + r.val, by omega⟩ r q ?_ ?_ ?_ ?_).trans ?_
  · intro j
    show V c main_arg1 (((cfg1.win 0).blk t).view.emb (ix2 r j)) = _
    refine congrArg (V c main_arg1) (funext fun a => Fin.ext ?_)
    match a with
    | ⟨0, _⟩ => show win1_0.index t (0 : Fin 2) * 400 + 1 * r.val = t.val * 400 + r.val; omega
    | ⟨1, _⟩ => show win1_0.index t (1 : Fin 2) * 10000 + 1 * j.val = j.val; omega
  · intro j k
    show V c main_v0 (((cfg1.win 1).blk t).view.emb (ix2 j k)) = _
    refine congrArg (V c main_v0) (funext fun a => Fin.ext ?_)
    match a with
    | ⟨0, _⟩ => show win1_1.index t (0 : Fin 2) * 10000 + 1 * j.val = j.val; omega
    | ⟨1, _⟩ => show win1_1.index t (1 : Fin 2) * 128 + 1 * k.val = k.val; omega
  · intro k
    show V c main_v1 (((cfg1.win 2).blk t).view.emb (ix2 (0 : Fin 1) k)) = _
    refine congrArg (V c main_v1) (funext fun a => Fin.ext ?_)
    match a with
    | ⟨0, _⟩ => show win1_2.index t (0 : Fin 2) * 1 + 1 * (0 : Fin 1).val = (0 : Fin 1).val; omega
    | ⟨1, _⟩ => show win1_2.index t (1 : Fin 2) * 128 + 1 * k.val = k.val; omega
  · intro k
    show V c main_arg4 (((cfg1.win 3).blk t).view.emb (ix2 k q)) = _
    refine congrArg (V c main_arg4) (funext fun a => Fin.ext ?_)
    match a with
    | ⟨0, _⟩ => show win1_3.index t (0 : Fin 2) * 128 + 1 * k.val = k.val; omega
    | ⟨1, _⟩ => show win1_3.index t (1 : Fin 2) * 64 + 1 * q.val = q.val; omega
  · show Cert.Gcn.projAt (V c main_arg1) (V c main_v0) (fun k => V c main_v1 (ix2 (0 : Fin 1) k)) (V c main_arg4) _ _
      = Cert.Gcn.projAt (V c main_arg1) (V c main_v0) (fun k => V c main_v1 (ix2 (0 : Fin 1) k)) (V c main_arg4)
          ((((cfg1.win 4).blk t).view.emb (ix2 r q)) 0) ((((cfg1.win 4).blk t).view.emb (ix2 r q)) 1)
    refine congrArg₂ (Cert.Gcn.projAt (V c main_arg1) (V c main_v0) (fun k => V c main_v1 (ix2 (0 : Fin 1) k)) (V c main_arg4))
      (Fin.ext ?_) (Fin.ext ?_)
    · show t.val * 400 + r.val = win1_4.index t (0 : Fin 2) * 400 + 1 * r.val
      omega
    · show q.val = win1_4.index t (1 : Fin 2) * 64 + 1 * q.val
      omega

/-- An index of the array is in point t's block iff each coordinate is in the block's range on its axis. -/
theorem mem_blk (t : Fin cfg1.N) (i : S10000x64.Idx) :
    i ∈ ((cfg1.win 4).blk t).view.set ↔ ∀ a : Fin 2, win1_4.index t a * S400x64.size a ≤ (i a).val
      ∧ (i a).val < win1_4.index t a * S400x64.size a + S400x64.size a := by
  show i ∈ ((View.whole main_v3).slice (win1_4.rect t)).set ↔ _
  rw [View.set_slice_whole, Rect.mem_set_unit]
  exact Iff.rfl

/-- Every index of the array lies in the block of the point its row divided by 400 names. -/
theorem cover (i : S10000x64.Idx) :
    ∃ t : Fin cfg1.N, (cfg1.win 4).flush t = true ∧ i ∈ ((cfg1.win 4).blk t).view.set := by
  have hi0 : (i 0).val < 10000 := (i 0).isLt
  have hi1 : (i 1).val < 64 := (i 1).isLt
  have hN : cfg1.N = 25 := N_1
  obtain ⟨t, htv⟩ : ∃ t : Fin cfg1.N, t.val = (i 0).val / 400 := ⟨⟨(i 0).val / 400, by rw [hN]; omega⟩, rfl⟩
  obtain ⟨e00, e01, e10, e11, e20, e21, e30, e31, e40, e41⟩ := idx_facts t
  refine ⟨t, flush1_4 t, ?_⟩
  rw [mem_blk]
  intro a
  match a with
  | ⟨0, _⟩ =>
    show win1_4.index t (0 : Fin 2) * 400 ≤ (i 0).val ∧ (i 0).val < win1_4.index t (0 : Fin 2) * 400 + 400
    omega
  | ⟨1, _⟩ =>
    show win1_4.index t (1 : Fin 2) * 64 ≤ (i 1).val ∧ (i 1).val < win1_4.index t (1 : Fin 2) * 64 + 64
    omega

theorem final (c : Dev nD) : (dat1 V c).arrAt 4 cfg1.N = Cert.Gcn.layer1 (V c main_arg1) (V c main_v0) (V c main_v1) (V c main_arg4) := by
  exact (dat1 V c).arrAt_eq_of_cover 4 _ (fun t _ => flushed_eq V c t) cover

end Cert.KernelIdeal.Region1

end
-- ==== Proof.Region2.lean ====
import proofs.«117953_g47150150975850_cont_8to1c4_652_2_alg».proof.Proof.Gen.KernelIdeal.Frame
import proofs.«117953_g47150150975850_cont_8to1c4_652_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-! ## The product read at an index -/

theorem lhs_dot_0 (i : S400x64.Idx) (q : dot_S400x10000_S10000x64_S400x64_1_0_0_1_n_n.contr.Idx) :
    (dot_S400x10000_S10000x64_S400x64_1_0_0_1_n_n.lhsIdx i q 0).val = (i 0).val := by
  unfold DotDims.lhsIdx
  rw [dif_neg (show ¬(0 : Fin S400x10000.rank) ∈ dot_S400x10000_S10000x64_S400x64_1_0_0_1_n_n.lhsBatch by decide), dif_pos (show (0 : Fin S400x10000.rank) ∈ dot_S400x10000_S10000x64_S400x64_1_0_0_1_n_n.lhsNonContracting by decide)]
  rfl
theorem lhs_dot_1 (i : S400x64.Idx) (q : dot_S400x10000_S10000x64_S400x64_1_0_0_1_n_n.contr.Idx) :
    (dot_S400x10000_S10000x64_S400x64_1_0_0_1_n_n.lhsIdx i q 1).val = (q ⟨0, by decide⟩).val :=
  dot_S400x10000_S10000x64_S400x64_1_0_0_1_n_n.lhsIdx_val_of_single rfl i q
theorem rhs_dot_0 (i : S400x64.Idx) (q : dot_S400x10000_S10000x64_S400x64_1_0_0_1_n_n.contr.Idx) :
    (dot_S400x10000_S10000x64_S400x64_1_0_0_1_n_n.rhsIdx i q 0).val = (q ⟨0, by decide⟩).val :=
  dot_S400x10000_S10000x64_S400x64_1_0_0_1_n_n.rhsIdx_val_of_single rfl i q
theorem rhs_dot_1 (i : S400x64.Idx) (q : dot_S400x10000_S10000x64_S400x64_1_0_0_1_n_n.contr.Idx) :
    (dot_S400x10000_S10000x64_S400x64_1_0_0_1_n_n.rhsIdx i q 1).val = (i 1).val := by
  unfold DotDims.rhsIdx
  rw [dif_neg (show ¬(1 : Fin S10000x64.rank) ∈ dot_S400x10000_S10000x64_S400x64_1_0_0_1_n_n.rhsBatch by decide), dif_pos (show (1 : Fin S10000x64.rank) ∈ dot_S400x10000_S10000x64_S400x64_1_0_0_1_n_n.rhsNonContracting by decide)]
  rfl

/-- Entry (r, c) of a 400 × 10000 block times a 10000 × 64 matrix, accumulated into zero, is the sum over the shared axis. -/
theorem matmul_at (x0 : FVec Ideal S400x10000 .f32) (x1 : FVec Ideal S10000x64 .f32) (r : Fin 400) (c : Fin 64) :
    matmul dot_S400x10000_S10000x64_S400x64_1_0_0_1_n_n none x0 x1 (constant (F := Ideal) S400x64 .f32 0x00000000#32) (ix2 r c) = Cert.Gcn.dotAt x0 x1 r c := by
  simp only [matmul]
  rw [Ideal.matmul_constant_zero_apply, ← Equiv.sum_comp (ValueIdx.contrEquiv1 dot_S400x10000_S10000x64_S400x64_1_0_0_1_n_n 10000 rfl rfl).symm]
  unfold Cert.Gcn.dotAt
  refine Finset.sum_congr rfl fun k _ => ?_
  have hk := ValueIdx.contrEquiv1_symm_val dot_S400x10000_S10000x64_S400x64_1_0_0_1_n_n 10000 rfl rfl k
  have el : dot_S400x10000_S10000x64_S400x64_1_0_0_1_n_n.lhsIdx (ix2 r c) ((ValueIdx.contrEquiv1 dot_S400x10000_S10000x64_S400x64_1_0_0_1_n_n 10000 rfl rfl).symm k) = ix2 r k := funext fun a => Fin.ext (by
    match a with
    | ⟨0, _⟩ => exact lhs_dot_0 _ _
    | ⟨1, _⟩ => exact (lhs_dot_1 _ _).trans hk)
  have er : dot_S400x10000_S10000x64_S400x64_1_0_0_1_n_n.rhsIdx (ix2 r c) ((ValueIdx.contrEquiv1 dot_S400x10000_S10000x64_S400x64_1_0_0_1_n_n 10000 rfl rfl).symm k) = ix2 k c := funext fun a => Fin.ext (by
    match a with
    | ⟨0, _⟩ => exact (rhs_dot_0 _ _).trans hk
    | ⟨1, _⟩ => exact rhs_dot_1 _ _)
  rw [el, er]

/-! ## The row reductions and the column casts read at an index -/

/-- The maximum along the second axis of a 400 × 64 block at row r: the fold of max from -∞ over that row. -/
theorem rowmax_at (v : FVec Ideal S400x64 .f32) (hφ : FKind.Formats .f32)
    (hacc : (0xFF800000#32 : BitVec 32) = 0xFF800000#32) (r : Fin 400) :
    multiReduction .maximumf [1] S400 v 0xFF800000#32 reduces_S400x64_S400 hφ hacc (ix1 r)
      = Cert.Gcn.rowMax (fun c => v (ix2 r c)) := by
  refine (Ideal.multiReduction_maximumf_single v _ reduces_S400x64_S400 hφ hacc (ix1 r)).trans ?_
  unfold Cert.Gcn.rowMax
  show (Finset.univ : Finset (Fin 64)).fold max (Ideal.ofBits .f32 0xFF800000#32) _ = _
  rw [Cert.Gcn.negInf_f32]
  refine congrArg ((Finset.univ : Finset (Fin 64)).fold max ⊥) (funext fun c => ?_)
  exact congrArg v (funext fun a => Fin.ext (by match a with | ⟨0, _⟩ => rfl | ⟨1, _⟩ => rfl))

/-- The sum along the second axis of a 400 × 64 block at row r. -/
theorem rowsum_at (v : FVec Ideal S400x64 .f32) (hφ : FKind.Formats .f32)
    (hacc : (0x00000000#32 : BitVec 32) = 0x00000000#32) (r : Fin 400) :
    multiReduction .add [1] S400 v 0x00000000#32 reduces_S400x64_S400 hφ hacc (ix1 r)
      = ∑ c : Fin 64, v (ix2 r c) := by
  refine (Ideal.multiReduction_add_single v _ reduces_S400x64_S400 hφ hacc (ix1 r)).trans ?_
  show ∑ c : Fin 64, _ = _
  refine Finset.sum_congr rfl fun c _ => ?_
  exact congrArg v (funext fun a => Fin.ext (by match a with | ⟨0, _⟩ => rfl | ⟨1, _⟩ => rfl))

/-- A vector of 400 entries cast to a 400 × 1 column reads, at (r, u), the entry r. -/
theorem cast_col {α : Type} (x : S400.Idx → α) (r : Fin 400) (u : Fin 1) :
    shapeCast S400x1 x shapeCasts_S400_S400x1 (ix2 r u) = x (ix1 r) :=
  shapeCast_apply x shapeCasts_S400_S400x1 _ _ (by
    have hu : u.val = 0 := by omega
    rw [Shape.rowMajor_val_two, Shape.rowMajor_val_one]
    show r.val = r.val * 1 + u.val
    rw [hu, Nat.mul_one, Nat.add_zero])

/-- A 400 × 1 column broadcast to 400 × 64 reads, at (r, q), the column at r. -/
theorem bcast_col {α : Type} (x : S400x1.Idx → α) (r : Fin 400) (q : Fin 64) :
    broadcastTo S400x64 x broadcasts_S400x1_S400x64 (ix2 r q) = x (ix2 r (0 : Fin 1)) := by
  refine broadcastTo_apply x broadcasts_S400x1_S400x64 (ix2 r q) (ix2 r (0 : Fin 1)) fun ax => ?_
  match ax with
  | ⟨0, _⟩ => show r.val = if (400 : Nat) = 1 then 0 else r.val; rw [if_neg (by decide)]
  | ⟨1, _⟩ => show 0 = if (1 : Nat) = 1 then 0 else q.val; rw [if_pos rfl]

/-! ## The body's arithmetic read at an index -/

/-- The logits of a row block: entry (r, c) of the block times s2, plus the bias row at c. -/
def blkLogit (x0 : FVec Ideal S400x10000 .f32) (x1 : FVec Ideal S10000x64 .f32) (x2 : FVec Ideal S1x64 .f32)
    (r : Fin 400) (c : Fin 64) : EReal :=
  Cert.Gcn.dotAt x0 x1 r c + x2 (ix2 (0 : Fin 1) c)

/-- The first half of the body: the product with the bias row added. -/
def logits (x0 : FVec Ideal S400x10000 .f32) (x1 : FVec Ideal S10000x64 .f32) (x2 : FVec Ideal S1x64 .f32) : FVec Ideal S400x64 .f32 :=
  addf (matmul dot_S400x10000_S10000x64_S400x64_1_0_0_1_n_n none x0 (shapeCast S10000x64 x1 shapeCasts_S10000x64_S10000x64) (constant (F := Ideal) S400x64 .f32 0x00000000#32))
    (broadcastTo S400x64 (shapeCast S1x64 x2 shapeCasts_S1x64_S1x64) broadcasts_S1x64_S400x64)

theorem logits_at (x0 : FVec Ideal S400x10000 .f32) (x1 : FVec Ideal S10000x64 .f32) (x2 : FVec Ideal S1x64 .f32)
    (r : Fin 400) (c : Fin 64) : logits x0 x1 x2 (ix2 r c) = blkLogit x0 x1 x2 r c := by
  unfold logits blkLogit
  rw [shapeCast_self, shapeCast_self]
  show matmul dot_S400x10000_S10000x64_S400x64_1_0_0_1_n_n none x0 x1 (constant (F := Ideal) S400x64 .f32 0x00000000#32) (ix2 r c)
    + broadcastTo S400x64 x2 broadcasts_S1x64_S400x64 (ix2 r c) = _
  rw [matmul_at, broadcastTo_1b_ab_apply]

/-- The second half of the body: the row-wise log-softmax of a 400 × 64 block, the shift and the log-sum added first. -/
def lsmOf (v7 : FVec Ideal S400x64 .f32) : FVec Ideal S400x64 .f32 :=
  have v8 : FVec Ideal S400 .f32 := multiReduction .maximumf [1] S400 v7 0xFF800000#32 reduces_S400x64_S400 (.inl rfl) rfl
  have v9 : FVec Ideal S400x1 .f32 := shapeCast S400x1 v8 shapeCasts_S400_S400x1
  have v10 : FVec Ideal S400x64 .f32 := broadcastTo S400x64 v9 broadcasts_S400x1_S400x64
  have v11 : FVec Ideal S400x64 .f32 := subf v7 v10
  have v12 : FVec Ideal S400x64 .f32 := exp v11
  have v13 : FVec Ideal S400 .f32 := multiReduction .add [1] S400 v12 0x00000000#32 reduces_S400x64_S400 (.inl rfl) rfl
  have v14 : FVec Ideal S400x1 .f32 := shapeCast S400x1 v13 shapeCasts_S400_S400x1
  have v15 : FVec Ideal S400x1 .f32 := log v14
  have v16 : FVec Ideal S400x1 .f32 := addf v9 v15
  have v17 : FVec Ideal S400x64 .f32 := broadcastTo S400x64 v16 broadcasts_S400x1_S400x64
  subf v7 v17

/-- The payload is the log-softmax of the logits. -/
theorem pay_eq (x0 : FVec Ideal S400x10000 .f32) (x1 : FVec Ideal S10000x64 .f32) (x2 : FVec Ideal S1x64 .f32) :
    k2_pay1 (F := Ideal) x0 x1 x2 = lsmOf (logits x0 x1 x2) := rfl

theorem lsmOf_at (v : FVec Ideal S400x64 .f32) (r : Fin 400) (q : Fin 64) :
    lsmOf v (ix2 r q) = Cert.Gcn.lsmAdd (fun c => v (ix2 r c)) q := by
  unfold lsmOf Cert.Gcn.lsmAdd Cert.Gcn.lseShift
  dsimp only
  rw [subf_apply, bcast_col, addf_apply, cast_col, rowmax_at]
  show _ - (_ + Ideal.log (shapeCast S400x1 _ shapeCasts_S400_S400x1 (ix2 r (0 : Fin 1)))) = _
  rw [cast_col, rowsum_at]
  refine congrArg (fun s => v (ix2 r q) - (Cert.Gcn.rowMax (fun c => v (ix2 r c)) + Ideal.log s)) (Finset.sum_congr rfl fun c _ => ?_)
  show Ideal.exp (v (ix2 r c) - broadcastTo S400x64 _ broadcasts_S400x1_S400x64 (ix2 r c)) = _
  rw [bcast_col, cast_col, rowmax_at]

/-- The payload at (r, q): the log-softmax of the block's logits of row r, at q. -/
theorem pay_at (x0 : FVec Ideal S400x10000 .f32) (x1 : FVec Ideal S10000x64 .f32) (x2 : FVec Ideal S1x64 .f32)
    (r : Fin 400) (q : Fin 64) :
    k2_pay1 (F := Ideal) x0 x1 x2 (ix2 r q) = Cert.Gcn.lsmAdd (blkLogit x0 x1 x2 r) q := by
  rw [pay_eq, lsmOf_at]
  exact congrArg (fun o => Cert.Gcn.lsmAdd o q) (funext fun c => logits_at x0 x1 x2 r c)

/-! ## From the blocks to the array -/

theorem hz : (![0, 0] : Fin 2 → Nat) = fun _ => 0 := funext fun a => by fin_cases a <;> rfl

/-- The block indices of the four windows at a grid point: the adjacency rows and the result move with the point, the
    second factor and the bias row stay at the origin. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row r of a row block that sits at row R of the adjacency, against the whole second factor and bias row, gives the
    entry (R, q) of the third stage. -/
theorem blk_eq_layer2 (adj : Cert.Gcn.Mat 10000 10000) (s2 : Cert.Gcn.Mat 10000 64) (b2r : Cert.Gcn.Mat 1 64)
    (x0 : FVec Ideal S400x10000 .f32) (x1 : FVec Ideal S10000x64 .f32) (x2 : FVec Ideal S1x64 .f32)
    (R : Fin 10000) (r : Fin 400) (q : Fin 64)
    (h0 : ∀ j : Fin 10000, x0 (ix2 r j) = adj (ix2 R j))
    (h1 : ∀ (j : Fin 10000) (c : Fin 64), x1 (ix2 j c) = s2 (ix2 j c))
    (h2 : ∀ c : Fin 64, x2 (ix2 (0 : Fin 1) c) = b2r (ix2 (0 : Fin 1) c)) :
    Cert.Gcn.lsmAdd (blkLogit x0 x1 x2 r) q = Cert.Gcn.layer2 adj s2 b2r (ix2 R q) := by
  show _ = Cert.Gcn.lsmAdd (fun c => Cert.Gcn.logitAt adj s2 (fun c' => b2r (ix2 (0 : Fin 1) c')) R c) q
  refine congrArg (fun o => Cert.Gcn.lsmAdd o q) (funext fun c => ?_)
  unfold blkLogit Cert.Gcn.logitAt Cert.Gcn.dotAt
  rw [h2 c]
  exact congrArg (· + b2r (ix2 (0 : Fin 1) c)) (Finset.sum_congr rfl fun j _ => by rw [h0 j, h1 j c])

/-- What grid point t writes back is block t of the third stage of the arrays found at entry. -/
theorem flushed_eq (c : Dev nD) (t : Fin cfg2.N) :
    (dat2 V c).flushed 3 t = ((cfg2.win 3).blk t).view.read (Elt Ideal) (Cert.Gcn.layer2 (V c main_arg1) (V c main_v3) (V c main_v2)) := by
  show (cfg2.win 3).cut (grid2.coords t) ((dat2 V c).after 3 t) = _
  rw [after2_3]
  unfold out2_3
  rw [View.canon_unit_zero hz]
  simp only [View.ld_unit_zero (S := S400x10000) hz, View.ld_unit_zero (S := S10000x64) hz, View.ld_unit_zero (S := S1x64) hz]
  obtain ⟨e0, e1, e2, e3, e4, e5, e6, e7⟩ := idx_facts t
  have ht : t.val < 25 := t.isLt.trans_eq N_2
  funext j
  obtain ⟨r, q, rfl⟩ : ∃ (r : Fin 400) (q : Fin 64), j = ix2 r q := ⟨j 0, j 1, eq_ix2 j⟩
  have hr : r.val < 400 := r.isLt
  have hq : q.val < 64 := q.isLt
  have hemb : ((cfg2.win 3).blk t).view.emb (ix2 r q) = ix2 (⟨t.val * 400 + r.val, by omega⟩ : Fin 10000) q := by
    funext a; apply Fin.ext
    match a with
    | ⟨0, _⟩ => show win2_3.index t (0 : Fin 2) * 400 + 1 * r.val = t.val * 400 + r.val; omega
    | ⟨1, _⟩ => show win2_3.index t (1 : Fin 2) * 64 + 1 * q.val = q.val; omega
  show k2_pay1 (F := Ideal) (iblk2 V c 0 t) (iblk2 V c 1 t) (iblk2 V c 2 t) (ix2 r q)
      = Cert.Gcn.layer2 (V c main_arg1) (V c main_v3) (V c main_v2) (((cfg2.win 3).blk t).view.emb (ix2 r q))
  rw [hemb, pay_at]
  refine blk_eq_layer2 _ _ _ _ _ _ _ r q (fun j => ?_) (fun j c' => ?_) (fun c' => ?_)
  · show V c main_arg1 (((cfg2.win 0).blk t).view.emb (ix2 r j)) = _
    refine congrArg (V c main_arg1) (funext fun a => Fin.ext ?_)
    match a with
    | ⟨0, _⟩ => show win2_0.index t (0 : Fin 2) * 400 + 1 * r.val = t.val * 400 + r.val; omega
    | ⟨1, _⟩ => show win2_0.index t (1 : Fin 2) * 10000 + 1 * j.val = j.val; omega
  · show V c main_v3 (((cfg2.win 1).blk t).view.emb (ix2 j c')) = _
    refine congrArg (V c main_v3) (funext fun a => Fin.ext ?_)
    match a with
    | ⟨0, _⟩ => show win2_1.index t (0 : Fin 2) * 10000 + 1 * j.val = j.val; omega
    | ⟨1, _⟩ => show win2_1.index t (1 : Fin 2) * 64 + 1 * c'.val = c'.val; omega
  · show V c main_v2 (((cfg2.win 2).blk t).view.emb (ix2 (0 : Fin 1) c')) = _
    refine congrArg (V c main_v2) (funext fun a => Fin.ext ?_)
    match a with
    | ⟨0, _⟩ => show win2_2.index t (0 : Fin 2) * 1 + 1 * 0 = 0; omega
    | ⟨1, _⟩ => show win2_2.index t (1 : Fin 2) * 64 + 1 * c'.val = c'.val; omega

/-- An index of the result array is in point t's block iff each coordinate is in the block's range on its axis. -/
theorem mem_blk (t : Fin cfg2.N) (i : S10000x64.Idx) :
    i ∈ ((cfg2.win 3).blk t).view.set ↔ ∀ a : Fin 2, win2_3.index t a * S400x64.size a ≤ (i a).val ∧ (i a).val < win2_3.index t a * S400x64.size a + S400x64.size a := by
  show i ∈ ((View.whole main_v4).slice (win2_3.rect t)).set ↔ _
  rw [View.set_slice_whole, Rect.mem_set_unit]
  exact Iff.rfl

/-- Every index of the result array lies in the block of the point (row / 400), which is written back. -/
theorem cover (i : S10000x64.Idx) :
    ∃ t : Fin cfg2.N, (cfg2.win 3).flush t = true ∧ i ∈ ((cfg2.win 3).blk t).view.set := by
  have hi0 : (i 0).val < 10000 := (i 0).isLt
  have hi1 : (i 1).val < 64 := (i 1).isLt
  have h25 : (i 0).val / 400 < 25 := by omega
  obtain ⟨-, -, -, -, -, -, e6, e7⟩ := idx_facts ⟨(i 0).val / 400, h25.trans_eq N_2.symm⟩
  have e6' : win2_3.index ⟨(i 0).val / 400, h25.trans_eq N_2.symm⟩ (0 : Fin 2) = (i 0).val / 400 := e6
  refine ⟨⟨(i 0).val / 400, h25.trans_eq N_2.symm⟩, flush2_3 _, ?_⟩
  rw [mem_blk]
  intro a
  match a with
  | ⟨0, _⟩ =>
    show win2_3.index ⟨(i 0).val / 400, h25.trans_eq N_2.symm⟩ (0 : Fin 2) * 400 ≤ (i 0).val
      ∧ (i 0).val < win2_3.index ⟨(i 0).val / 400, h25.trans_eq N_2.symm⟩ (0 : Fin 2) * 400 + 400
    omega
  | ⟨1, _⟩ =>
    show win2_3.index ⟨(i 0).val / 400, h25.trans_eq N_2.symm⟩ (1 : Fin 2) * 64 ≤ (i 1).val
      ∧ (i 1).val < win2_3.index ⟨(i 0).val / 400, h25.trans_eq N_2.symm⟩ (1 : Fin 2) * 64 + 64
    omega

theorem final (c : Dev nD) : (dat2 V c).arrAt 3 cfg2.N = Cert.Gcn.layer2 (V c main_arg1) (V c main_v3) (V c main_v2) := by
  exact (dat2 V c).arrAt_eq_of_cover 3 _ (fun t _ => flushed_eq V c t) cover

end Cert.KernelIdeal.Region2

end
-- ==== Proof.Chain.lean ====
/-
  The three regions composed.  Region 0 leaves s1 = x · W1 in main_v0; the host stretch after it writes the two biases as
  one-row matrices (main_v1, main_v2) and touches nothing else; region 1 reads adj, s1, the bias row and W2 and leaves
  s2 in main_v3; region 2 reads adj, s2 and the second bias row and leaves the result in main_v4.  No region and no host
  operation writes an argument array, so each stage finds the arguments as launched, and the result array after the run is
  the composition of the three stage functions of the launch contents.
-/
import proofs.«117953_g47150150975850_cont_8to1c4_652_2_alg».proof.Proof.Gen.KernelIdeal.Frame
import proofs.«117953_g47150150975850_cont_8to1c4_652_2_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Chain

open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat Cfg Window)

variable (m : (ℓ : Loc nD τ sig) → Buf (Elt Ideal) ℓ) (ρ : Dev nD → PrngReg)

/-- The host stretch between regions 0 and 1 writes the two bias rows only. -/
theorem W2_main_arg1 (c : Dev nD) : W2 m ρ c (Proc.devRef .tc main_arg1) = W1 m ρ c (Proc.devRef .tc main_arg1) :=
  StableHlo.after_of_forall_not_mem (b := Proc.devRef .tc main_arg1) _ _ (List.forall_iff_forall_mem.mp (by
    simp only [hostOps1, List.Forall, StableHlo.reshape_writes, Finset.mem_singleton]
    repeat' apply And.intro
    all_goals exact StableHlo.devRef_ne_of_ne (by decide)))
theorem W2_main_arg4 (c : Dev nD) : W2 m ρ c (Proc.devRef .tc main_arg4) = W1 m ρ c (Proc.devRef .tc main_arg4) :=
  StableHlo.after_of_forall_not_mem (b := Proc.devRef .tc main_arg4) _ _ (List.forall_iff_forall_mem.mp (by
    simp only [hostOps1, List.Forall, StableHlo.reshape_writes, Finset.mem_singleton]
    repeat' apply And.intro
    all_goals exact StableHlo.devRef_ne_of_ne (by decide)))
theorem W2_main_v0 (c : Dev nD) : W2 m ρ c (Proc.devRef .tc main_v0) = W1 m ρ c (Proc.devRef .tc main_v0) :=
  StableHlo.after_of_forall_not_mem (b := Proc.devRef .tc main_v0) _ _ (List.forall_iff_forall_mem.mp (by
    simp only [hostOps1, List.Forall, StableHlo.reshape_writes, Finset.mem_singleton]
    repeat' apply And.intro
    all_goals exact StableHlo.devRef_ne_of_ne (by decide)))

/-- The first bias as region 1 finds it: the argument vector as a one-row matrix. -/
theorem W2_main_v1 (c : Dev nD) : W2 m ρ c (Proc.devRef .tc main_v1) = Cert.Gcn.rowOf (m ((c : Thread nD τ).loc main_arg3)) := by
  show StableHlo.after hostOps1 (W1 m ρ c) (Proc.devRef .tc main_v1) = _
  after_results
  funext i
  obtain ⟨u, k, rfl⟩ : ∃ (u : Fin 1) (k : Fin 128), i = ix2 u k := ⟨i 0, i 1, eq_ix2 i⟩
  show shapeCast (⟨2, ![1, 128]⟩ : Shape) (W1 m ρ c (Proc.devRef .tc main_arg3)) shapeCasts_S128_S1x128 (ix2 u k) = _
  refine (shapeCast_a_1a_apply _ _ u k).trans ?_
  exact congrFun (W1_of_ne m ρ c main_arg3 (by decide)) (ix1 k)

/-- The second bias as region 2 finds it: region 1 does not touch it. -/
theorem W3_main_v2 (c : Dev nD) : W3 m ρ c (Proc.devRef .tc main_v2) = Cert.Gcn.rowOf (m ((c : Thread nD τ).loc main_arg5)) := by
  rw [W3_of_ne m ρ c main_v2 (by decide)]
  show StableHlo.after hostOps1 (W1 m ρ c) (Proc.devRef .tc main_v2) = _
  after_results
  funext i
  obtain ⟨u, k, rfl⟩ : ∃ (u : Fin 1) (k : Fin 64), i = ix2 u k := ⟨i 0, i 1, eq_ix2 i⟩
  show shapeCast (⟨2, ![1, 64]⟩ : Shape) (W1 m ρ c (Proc.devRef .tc main_arg5)) shapeCasts_S64_S1x64 (ix2 u k) = _
  refine (shapeCast_a_1a_apply _ _ u k).trans ?_
  exact congrFun (W1_of_ne m ρ c main_arg5 (by decide)) (ix1 k)

/-- The adjacency as regions 1 and 2 find it is the launch contents. -/
theorem V2_main_arg1 (c : Dev nD) : V2 m ρ c main_arg1 = m ((c : Thread nD τ).loc main_arg1) :=
  (W2_main_arg1 m ρ c).trans (W1_of_ne m ρ c main_arg1 (by decide))
theorem V3_main_arg1 (c : Dev nD) : V3 m ρ c main_arg1 = m ((c : Thread nD τ).loc main_arg1) :=
  ((W3_arr m ρ c 0).trans (((dat1 (V2 m ρ) c).arrAt_in 0 rfl _).trans (A_eq1 (V2 m ρ) c 0))).trans (V2_main_arg1 m ρ c)
theorem V2_main_arg4 (c : Dev nD) : V2 m ρ c main_arg4 = m ((c : Thread nD τ).loc main_arg4) :=
  (W2_main_arg4 m ρ c).trans (W1_of_ne m ρ c main_arg4 (by decide))

/-- The result array after the run is the three stage functions composed, of the launch contents. -/
theorem result_eq
    (h0 : ∀ (V : (c : Dev nD) → (b : Ref sig .tc) → Buf (Elt Ideal) ((c : Thread nD τ).loc b)) (c : Dev nD),
      (dat0 V c).arrAt 2 cfg0.N = Cert.Gcn.mm (V c main_arg0) (V c main_arg2))
    (h1 : ∀ (V : (c : Dev nD) → (b : Ref sig .tc) → Buf (Elt Ideal) ((c : Thread nD τ).loc b)) (c : Dev nD),
      (dat1 V c).arrAt 4 cfg1.N = Cert.Gcn.layer1 (V c main_arg1) (V c main_v0) (V c main_v1) (V c main_arg4))
    (h2 : ∀ (V : (c : Dev nD) → (b : Ref sig .tc) → Buf (Elt Ideal) ((c : Thread nD τ).loc b)) (c : Dev nD),
      (dat2 V c).arrAt 3 cfg2.N = Cert.Gcn.layer2 (V c main_arg1) (V c main_v3) (V c main_v2))
    (c : Dev nD) :
    W4 m ρ c (Proc.devRef .tc main_v4)
      = Cert.Gcn.fusedOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  have e0 : V2 m ρ c main_v0 = Cert.Gcn.mm (m ((c : Thread nD τ).loc main_arg0)) (m ((c : Thread nD τ).loc main_arg2)) :=
    ((W2_main_v0 m ρ c).trans (W1_arr m ρ c 2)).trans (h0 (V0 m ρ) c)
  have e1 : V3 m ρ c main_v3 = Cert.Gcn.layer1 (m ((c : Thread nD τ).loc main_arg1))
      (Cert.Gcn.mm (m ((c : Thread nD τ).loc main_arg0)) (m ((c : Thread nD τ).loc main_arg2)))
      (Cert.Gcn.rowOf (m ((c : Thread nD τ).loc main_arg3))) (m ((c : Thread nD τ).loc main_arg4)) := by
    refine ((W3_arr m ρ c 4).trans (h1 (V2 m ρ) c)).trans ?_
    rw [V2_main_arg1 m ρ c, e0, V2_main_arg4 m ρ c]
    exact congrArg (fun b => Cert.Gcn.layer1 _ _ b _) (W2_main_v1 m ρ c)
  refine ((W4_arr m ρ c 3).trans (h2 (V3 m ρ) c)).trans ?_
  rw [V3_main_arg1 m ρ c, e1]
  exact congrArg (fun b => Cert.Gcn.layer2 _ _ b) (W3_main_v2 m ρ c)

end Cert.KernelIdeal.Chain

end
-- ==== Proof.RefValue.lean ====
import proofs.«117953_g47150150975850_cont_8to1c4_652_2_alg».proof.Proof.RefRead
import proofs.«117953_g47150150975850_cont_8to1c4_652_2_alg».proof.Proof.Spec
import Idealize.ShloMosaic.Lib.Pipeline.Value
import Idealize.ShloMosaic.Lib.ValueIdx
import Idealize.ShloMosaic.PureOps.Ideal.Laws
import Idealize.ShloMosaic.PureOps.Reduce

set_option maxRecDepth 16384

noncomputable section

namespace Cert.ReferenceIdeal.RefValue

open Cert.ReferenceIdeal Cert.ReferenceIdeal.Gen Cert.ReferenceIdeal.ReadP
open Idealize.ShloMosaic Idealize.ShloMosaic.TcCoe Idealize.SL.Sem Idealize.ShloMosaic.ValueIdx

section Stages

variable (x0 : (⟨S10000x128, .f32⟩ : BufTy).Contents (Elt Ideal)) (x1 : (⟨S10000x10000, .f32⟩ : BufTy).Contents (Elt Ideal))
  (x2 : (⟨S128x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))

/-- The first stage is the product x · W1. -/
theorem v0_eq : val_main_v0 (F := Ideal) x0 x2 = Cert.Gcn.mm x0 x2 := by
  funext i
  obtain ⟨r, c, rfl⟩ : ∃ (r : Fin 10000) (c : Fin 128), i = ix2 r c := ⟨i 0, i 1, eq_ix2 i⟩
  rw [val_main_v0_apply]
  show _ = ∑ q : Fin 128, x0 (ix2 r q) * x2 (ix2 q c)
  refine Finset.sum_congr rfl fun k _ => ?_
  have el : lidx_main_v0 (ix2 r c) k = ix2 r k :=
    funext fun a => Fin.ext (by match a with | ⟨0, _⟩ => rfl | ⟨1, _⟩ => rfl)
  have er : ridx_main_v0 (ix2 r c) k = ix2 k c :=
    funext fun a => Fin.ext (by match a with | ⟨0, _⟩ => rfl | ⟨1, _⟩ => rfl)
  rw [el, er]

/-- Entry (r, k) of adj · (x · W1). -/
theorem v1_at (r : Fin 10000) (k : Fin 128) :
    val_main_v1 (F := Ideal) x0 x1 x2 (ix2 r k) = Cert.Gcn.dotAt x1 (Cert.Gcn.mm x0 x2) r k := by
  rw [val_main_v1_apply, v0_eq]
  show _ = ∑ q : Fin 10000, x1 (ix2 r q) * Cert.Gcn.mm x0 x2 (ix2 q k)
  refine Finset.sum_congr rfl fun q _ => ?_
  have el : lidx_main_v1 (ix2 r k) q = ix2 r q :=
    funext fun a => Fin.ext (by match a with | ⟨0, _⟩ => rfl | ⟨1, _⟩ => rfl)
  have er : ridx_main_v1 (ix2 r k) q = ix2 q k :=
    funext fun a => Fin.ext (by match a with | ⟨0, _⟩ => rfl | ⟨1, _⟩ => rfl)
  rw [el, er]

/-- The bias b1 broadcast down the rows reads b1 at the column. -/
theorem v3_at (r : Fin 10000) (k : Fin 128) : val_main_v3 (F := Ideal) x3 (ix2 r k) = x3 (ix1 k) := by
  rw [val_main_v3_apply, val_main_v2_apply]
  exact congrArg x3 (funext fun a => Fin.ext (by match a with | ⟨0, _⟩ => rfl))

/-- Entry (r, k) of the hidden layer: the relu of the biased product. -/
theorem v5_at (r : Fin 10000) (k : Fin 128) :
    val_main_v5 (F := Ideal) x0 x1 x2 x3 (ix2 r k)
      = Cert.Gcn.hidAt x1 (Cert.Gcn.mm x0 x2) (fun k => x3 (ix1 k)) r k := by
  rw [val_main_v5_apply, val_main_v4_apply, v1_at, v3_at, val_main_call0_v0_apply, val_main_call0_cst_apply]
  show max (_ + _) (Ideal.ofBits .f32 0x00000000#32) = max (_ + _) 0
  rw [Ideal.ofBits_zero_f32]

/-- Entry (r, c) of the hidden layer projected by W2. -/
theorem v6_at (r : Fin 10000) (c : Fin 64) :
    val_main_v6 (F := Ideal) x0 x1 x2 x3 x4 (ix2 r c)
      = Cert.Gcn.projAt x1 (Cert.Gcn.mm x0 x2) (fun k => x3 (ix1 k)) x4 r c := by
  rw [val_main_v6_apply]
  show _ = ∑ k : Fin 128, Cert.Gcn.hidAt x1 (Cert.Gcn.mm x0 x2) (fun k => x3 (ix1 k)) r k * x4 (ix2 k c)
  refine Finset.sum_congr rfl fun k _ => ?_
  have el : lidx_main_v6 (ix2 r c) k = ix2 r k :=
    funext fun a => Fin.ext (by match a with | ⟨0, _⟩ => rfl | ⟨1, _⟩ => rfl)
  have er : ridx_main_v6 (ix2 r c) k = ix2 k c :=
    funext fun a => Fin.ext (by match a with | ⟨0, _⟩ => rfl | ⟨1, _⟩ => rfl)
  rw [el, er, v5_at]

/-- The projected hidden layer as an array. -/
theorem v6_eq : val_main_v6 (F := Ideal) x0 x1 x2 x3 x4
    = fun j => Cert.Gcn.projAt x1 (Cert.Gcn.mm x0 x2) (fun k => x3 (ix1 k)) x4 (j 0) (j 1) := by
  funext j
  obtain ⟨r, c, rfl⟩ : ∃ (r : Fin 10000) (c : Fin 64), j = ix2 r c := ⟨j 0, j 1, eq_ix2 j⟩
  exact v6_at x0 x1 x2 x3 x4 r c

/-- Row r of the logits, as the specification spells it. -/
abbrev logits (r : Fin 10000) : Fin 64 → EReal := fun c =>
  Cert.Gcn.logitAt x1 (fun j => Cert.Gcn.projAt x1 (Cert.Gcn.mm x0 x2) (fun k => x3 (ix1 k)) x4 (j 0) (j 1))
    (fun c' => x5 (ix1 c')) r c

/-- The bias b2 broadcast down the rows reads b2 at the column. -/
theorem v9_at (r : Fin 10000) (c : Fin 64) : val_main_v9 (F := Ideal) x5 (ix2 r c) = x5 (ix1 c) := by
  rw [val_main_v9_apply, val_main_v8_apply]
  exact congrArg x5 (funext fun a => Fin.ext (by match a with | ⟨0, _⟩ => rfl))

/-- Entry (r, c) of the logits adj · s2 + b2. -/
theorem v10_at (r : Fin 10000) (c : Fin 64) :
    val_main_v10 (F := Ideal) x0 x1 x2 x3 x4 x5 (ix2 r c) = logits x0 x1 x2 x3 x4 x5 r c := by
  rw [val_main_v10_apply, val_main_v7_apply, v6_eq, v9_at]
  show (∑ q : Fin 10000, _) + _ = (∑ q : Fin 10000, x1 (ix2 r q) * _) + _
  refine congrArg (· + x5 (ix1 c)) (Finset.sum_congr rfl fun q _ => ?_)
  have el : lidx_main_v7 (ix2 r c) q = ix2 r q :=
    funext fun a => Fin.ext (by match a with | ⟨0, _⟩ => rfl | ⟨1, _⟩ => rfl)
  have er : ridx_main_v7 (ix2 r c) q = ix2 q c :=
    funext fun a => Fin.ext (by match a with | ⟨0, _⟩ => rfl | ⟨1, _⟩ => rfl)
  rw [el, er]

end Stages

section Softmax

variable (x0 : (⟨S10000x128, .f32⟩ : BufTy).Contents (Elt Ideal)) (x1 : (⟨S10000x10000, .f32⟩ : BufTy).Contents (Elt Ideal))
  (x2 : (⟨S128x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))

/-- A reduction by max over the column axis, started at the word of -∞: at row r it is the fold of max from ⊥
    over the 64 entries of row r (max is commutative and associative, so the fold over the indices that drop to r
    is the fold over the column coordinate; the index over r with column c inserted is (r, c)). -/
theorem rowMax_at (y : (⟨S10000x64, .f32⟩ : BufTy).Contents (Elt Ideal)) (r : Fin 10000) :
    Host.reduce (FloatOps.maximumf (F := Ideal) (φ := .f32)) y (val_main_call1_cst (F := Ideal)) reducesTo_S10000x64_S10000_d1 h_S_ (ix1 r)
      = Cert.Gcn.rowMax (fun c => y (ix2 r c)) := by
  have hR : S10000x64.Reduces [(1 : Fin S10000x64.rank)] S10000 := by decide
  rw [Host.reduce_eq_fold_single (FloatOps.maximumf (F := Ideal) (φ := .f32)) y _ reducesTo_S10000x64_S10000_d1 hR h_S_ (ix1 r)]
  have hf : (y ∘ hR.lift (ix1 r)) = fun c : Fin 64 => y (ix2 r c) :=
    funext fun c => congrArg y (funext fun a => Fin.ext (by match a with | ⟨0, _⟩ => rfl | ⟨1, _⟩ => rfl))
  rw [hf]
  show Finset.univ.fold max (Ideal.ofBits .f32 0xFF800000#32) _ = Finset.univ.fold max ⊥ _
  rw [Cert.Gcn.negInf_f32]
  rfl

/-- The row maximum of the logits. -/
theorem call1_v0_at (r : Fin 10000) :
    val_main_call1_v0 (F := Ideal) x0 x1 x2 x3 x4 x5 (ix1 r) = Cert.Gcn.rowMax (logits x0 x1 x2 x3 x4 x5 r) := by
  unfold val_main_call1_v0
  rw [rowMax_at]
  exact congrArg Cert.Gcn.rowMax (funext fun c => v10_at x0 x1 x2 x3 x4 x5 r c)

/-- Taking the maximum with -∞ once more changes nothing: max ⊥ m = m. -/
theorem call1_v2_at (r : Fin 10000) :
    val_main_call1_v2 (F := Ideal) x0 x1 x2 x3 x4 x5 (ix1 r) = Cert.Gcn.rowMax (logits x0 x1 x2 x3 x4 x5 r) := by
  rw [val_main_call1_v2_apply, val_main_call1_v1_apply, val_main_call1_cst_0_apply, call1_v0_at]
  show max (Ideal.ofBits .f32 0xFF800000#32) _ = _
  rw [Cert.Gcn.negInf_f32, max_bot_left]

/-- The row maximum broadcast along the row. -/
theorem call1_v4_at (r : Fin 10000) (c : Fin 64) :
    val_main_call1_v4 (F := Ideal) x0 x1 x2 x3 x4 x5 (ix2 r c) = Cert.Gcn.rowMax (logits x0 x1 x2 x3 x4 x5 r) := by
  rw [val_main_call1_v4_apply, val_main_call1_v3_apply]
  have e : idx_main_call1_v3 (idx_main_call1_v4 (ix2 r c)) = ix1 r :=
    funext fun a => Fin.ext (by match a with | ⟨0, _⟩ => rfl)
  rw [e, call1_v2_at]

/-- The shifted logit o[r, c] - m_r. -/
theorem call1_v5_at (r : Fin 10000) (c : Fin 64) :
    val_main_call1_v5 (F := Ideal) x0 x1 x2 x3 x4 x5 (ix2 r c)
      = logits x0 x1 x2 x3 x4 x5 r c - Cert.Gcn.rowMax (logits x0 x1 x2 x3 x4 x5 r) := by
  rw [val_main_call1_v5_apply, v10_at, call1_v4_at]
  rfl

/-- The row sum of the exponentials of the shifted logits (the sum starts at 0, and 0 + s = s). -/
theorem call1_v7_at (r : Fin 10000) :
    val_main_call1_v7 (F := Ideal) x0 x1 x2 x3 x4 x5 (ix1 r)
      = ∑ c : Fin 64, Ideal.exp (logits x0 x1 x2 x3 x4 x5 r c - Cert.Gcn.rowMax (logits x0 x1 x2 x3 x4 x5 r)) := by
  rw [val_main_call1_v7_apply, val_main_call1_cst_1_apply]
  show Ideal.ofBits .f32 0x00000000#32 + _ = _
  rw [Ideal.ofBits_zero_f32, zero_add]
  refine Finset.sum_congr rfl fun k _ => ?_
  have e : idx_main_call1_v7 (ix1 r) k = ix2 r k :=
    funext fun a => Fin.ext (by match a with | ⟨0, _⟩ => rfl | ⟨1, _⟩ => rfl)
  rw [e, val_main_call1_v6_apply, call1_v5_at]
  rfl

/-- The logarithm of that row sum, broadcast along the row. -/
theorem call1_v10_at (r : Fin 10000) (c : Fin 64) :
    val_main_call1_v10 (F := Ideal) x0 x1 x2 x3 x4 x5 (ix2 r c) = Cert.Gcn.lseShift (logits x0 x1 x2 x3 x4 x5 r) := by
  rw [val_main_call1_v10_apply, val_main_call1_v9_apply, val_main_call1_v8_apply]
  have e : idx_main_call1_v8 (idx_main_call1_v10 (ix2 r c)) = ix1 r :=
    funext fun a => Fin.ext (by match a with | ⟨0, _⟩ => rfl)
  rw [e, call1_v7_at]
  rfl

/-- Entry (r, c) of the result: the log-softmax of row r of the logits, the shift subtracted first. -/
theorem v11_at (r : Fin 10000) (c : Fin 64) :
    val_main_v11 (F := Ideal) x0 x1 x2 x3 x4 x5 (ix2 r c) = Cert.Gcn.lsmSub (logits x0 x1 x2 x3 x4 x5 r) c := by
  rw [val_main_v11_apply, call1_v5_at, call1_v10_at]
  rfl

end Softmax

theorem val_eq_plainOut (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal)) :
    val_main_v11 (F := Ideal) x0 x1 x2 x3 x4 x5 = Cert.Gcn.plainOut x0 x1 x2 x3 x4 x5 := by
  funext i
  obtain ⟨r, c, rfl⟩ : ∃ (r : Fin 10000) (c : Fin 64), i = ix2 r c := ⟨i 0, i 1, eq_ix2 i⟩
  exact v11_at x0 x1 x2 x3 x4 x5 r c

end Cert.ReferenceIdeal.RefValue

end
-- ==== Proof.lean ====
/-
  A two-layer dense graph convolution with a row-wise log-softmax, as three fused kernels, against the plain network.

  The kernel program computes s1 = x · W1 in one piece, then, for each block of 400 rows of adj,
  s2 = max (adj · s1 + b1) 0 · W2, then, again row-block by row-block, o = adj · s2 + b2 and
  o - (m + log Σ exp (o - m)) with m the row maximum.  The reference computes the same products whole and ends with
  (o - m) - log Σ exp (o - m).  Every product is taken in the same grouping on both sides, so over the extended reals
  the two results differ only in that last regrouping, a - (b + l) = (a - b) - l, which holds when a and b are real:
  here they are a logit and a row maximum of logits, real because every input entry is (the precondition), and sums,
  products and maxima of reals are real.

  The three frames: the kernel program's two are the generated frame certificates; the reference's is its run with the
  result dropped.  The idealization rewrote nothing, so there is nothing to preserve.  For the value claim the kernel
  program's run names its result array at the contents the last region leaves, the three regions' arrays are read as
  whole-array functions of what each finds at entry and composed through the host stretch between them, and the
  reference's run is read stage by stage at an index.
-/
import proofs.«117953_g47150150975850_cont_8to1c4_652_2_alg».proof.Defs
import proofs.«117953_g47150150975850_cont_8to1c4_652_2_alg».proof.Proof.Gen.Kernel
import proofs.«117953_g47150150975850_cont_8to1c4_652_2_alg».proof.Proof.Gen.Kernel.Skeleton
import proofs.«117953_g47150150975850_cont_8to1c4_652_2_alg».proof.Proof.Gen.Kernel.Launch
import proofs.«117953_g47150150975850_cont_8to1c4_652_2_alg».proof.Proof.Gen.Kernel.Points
import proofs.«117953_g47150150975850_cont_8to1c4_652_2_alg».proof.Proof.Gen.Kernel.Frame
import proofs.«117953_g47150150975850_cont_8to1c4_652_2_alg».proof.Proof.Gen.KernelIdeal
import proofs.«117953_g47150150975850_cont_8to1c4_652_2_alg».proof.Proof.Gen.KernelIdeal.Skeleton
import proofs.«117953_g47150150975850_cont_8to1c4_652_2_alg».proof.Proof.Gen.KernelIdeal.Launch
import proofs.«117953_g47150150975850_cont_8to1c4_652_2_alg».proof.Proof.Gen.KernelIdeal.Points
import proofs.«117953_g47150150975850_cont_8to1c4_652_2_alg».proof.Proof.Gen.KernelIdeal.Frame
import proofs.«117953_g47150150975850_cont_8to1c4_652_2_alg».proof.Proof.Gen.ReferenceIdeal
import proofs.«117953_g47150150975850_cont_8to1c4_652_2_alg».proof.Proof.Gen.Pre_finite_inputs
import proofs.«117953_g47150150975850_cont_8to1c4_652_2_alg».proof.Proof.Spec
import proofs.«117953_g47150150975850_cont_8to1c4_652_2_alg».proof.Proof.PreReal
import proofs.«117953_g47150150975850_cont_8to1c4_652_2_alg».proof.Proof.KernelRun
import proofs.«117953_g47150150975850_cont_8to1c4_652_2_alg».proof.Proof.Region0
import proofs.«117953_g47150150975850_cont_8to1c4_652_2_alg».proof.Proof.Region1
import proofs.«117953_g47150150975850_cont_8to1c4_652_2_alg».proof.Proof.Region2
import proofs.«117953_g47150150975850_cont_8to1c4_652_2_alg».proof.Proof.Chain
import proofs.«117953_g47150150975850_cont_8to1c4_652_2_alg».proof.Proof.RefRun
import proofs.«117953_g47150150975850_cont_8to1c4_652_2_alg».proof.Proof.RefRead
import proofs.«117953_g47150150975850_cont_8to1c4_652_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end with the fused stages' function of the arguments: the kernel program by composing its three regions,
    the reference by reading its stages, the two spellings of the log-softmax agreeing on real logits. -/
theorem algebraic : Cert.algebraic_KernelIdeal_ReferenceIdeal := by
  intro m ρ m' ρ' hpre hagree
  refine ⟨fun c => Cert.Gcn.fusedOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Chain.result_eq m ρ Cert.KernelIdeal.Region0.final
          Cert.KernelIdeal.Region1.final Cert.KernelIdeal.Region2.final c), (h c).2⟩)
      (Cert.KernelIdeal.RunValue.run_value (F := Ideal) m ρ)
  · refine (θ_run Cert.ReferenceIdeal.defs _ _).mono (fun r h c => ⟨(h c).1.trans ?_, (h c).2⟩)
      (Cert.ReferenceIdeal.ValueP.run (F := Ideal) m' ρ')
    obtain ⟨r0, r1, r2, r3, r4, r5⟩ := Cert.PreReal.real_of_fn _ _ _ _ _ _ (hpre c)
    rw [Cert.ReferenceIdeal.ReadP.val_main_v11_eq, Cert.ReferenceIdeal.RefValue.val_eq_plainOut,
      (hagree c).1, (hagree c).2.1, (hagree c).2.2.1, (hagree c).2.2.2.1, (hagree c).2.2.2.2.1, (hagree c).2.2.2.2.2]
    exact (Cert.Gcn.fusedOut_eq_plainOut _ _ _ _ _ _ r0 r1 r2 r3 r4 r5).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
